-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x7x7 : Shape := ⟨4, ![128, 2048, 7, 7]⟩
abbrev S2048x512 : Shape := ⟨2, ![2048, 512]⟩
abbrev S1x512 : Shape := ⟨2, ![1, 512]⟩
abbrev S512x1000 : Shape := ⟨2, ![512, 1000]⟩
abbrev S1x1000 : Shape := ⟨2, ![1, 1000]⟩
abbrev S_ : Shape := ⟨0, ![]⟩

class Facts : Prop where
  bcast_S_S128x2048x7x7 : S_.BroadcastsInDim S128x2048x7x7 (![] : Fin 0 → Fin S128x2048x7x7.rank)
  reducesTo_S128x2048x7x7_S_d0_1_2_3 : S128x2048x7x7.ReducesTo [0, 1, 2, 3] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S1x512 : S_.BroadcastsInDim S1x512 (![] : Fin 0 → Fin S1x512.rank)
  reducesTo_S1x512_S_d0_1 : S1x512.ReducesTo [0, 1] S_
  bcast_S_S512x1000 : S_.BroadcastsInDim S512x1000 (![] : Fin 0 → Fin S512x1000.rank)
  reducesTo_S512x1000_S_d0_1 : S512x1000.ReducesTo [0, 1] S_
  bcast_S_S1x1000 : S_.BroadcastsInDim S1x1000 (![] : Fin 0 → Fin S1x1000.rank)
  reducesTo_S1x1000_S_d0_1 : S1x1000.ReducesTo [0, 1] S_

variable [Facts]

def fn_part1 {F : FTy → Type} [FloatOps F] (main_arg4 : FVec F S1x512 .f32) (main_arg5 : FVec F S512x1000 .f32) (main_arg6 : FVec F S1x1000 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S512x1000 .f32 := Host.absf main_arg5
  let main_cst_8 : FVec F S_ .f32 := constant S_ .f32 0x7F800000#32
  let main_v25 : FVec F S512x1000 .f32 := broadcastInDim S512x1000 ![] bcast_S_S512x1000 main_cst_8
  let main_v26 : IVec S512x1000 1 := cmpf .olt main_v24 main_v25
  let main_c_9 : IVec S_ 1 := constantI S_ 1 1#1
  let main_v27 : IVec S_ 1 := (fun x v => Host.reduce IntOp.andi x v reducesTo_S512x1000_S_d0_1 h_S_) main_v26 main_c_9
  let main_v28 : IVec S_ 1 := andi main_v23 main_v27
  let main_v29 : FVec F S1x1000 .f32 := Host.absf main_arg6
  let main_cst_10 : FVec F S_ .f32 := constant S_ .f32 0x7F800000#32
  let main_v30 : FVec F S1x1000 .f32 := broadcastInDim S1x1000 ![] bcast_S_S1x1000 main_cst_10
  let main_v31 : IVec S1x1000 1 := cmpf .olt main_v29 main_v30
  let main_c_11 : IVec S_ 1 := constantI S_ 1 1#1
  let main_v32 : IVec S_ 1 := (fun x v => Host.reduce IntOp.andi x v reducesTo_S1x1000_S_d0_1 h_S_) main_v31 main_c_11
  let main_v33 : IVec S_ 1 := andi main_v28 main_v32
  main_v33

def fn {F : FTy → Type} [FloatOps F] (main_arg0 : FVec F S128x2048x7x7 .f32) (main_arg1 : FVec F S2048x512 .f32) (main_arg2 : FVec F S1x512 .f32) (main_arg3 : FVec F S1x512 .f32) (main_arg4 : FVec F S1x512 .f32) (main_arg5 : FVec F S512x1000 .f32) (main_arg6 : FVec F S1x1000 .f32) : IVec S_ 1 :=
  let main_v0 : FVec F S128x2048x7x7 .f32 := Host.absf main_arg0
  let main_cst : FVec F S_ .f32 := constant S_ .f32 0x7F800000#32
  let main_v1 : FVec F S128x2048x7x7 .f32 := broadcastInDim S128x2048x7x7 ![] bcast_S_S128x2048x7x7 main_cst
  let main_v2 : IVec S128x2048x7x7 1 := cmpf .olt main_v0 main_v1
  let main_c : IVec S_ 1 := constantI S_ 1 1#1
  let main_v3 : IVec S_ 1 := (fun x v => Host.reduce IntOp.andi x v reducesTo_S128x2048x7x7_S_d0_1_2_3 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_v13 main_v16
-- ==== Kernel.lean ====
abbrev S128x2048x7x7 : Shape := ⟨4, ![128, 2048, 7, 7]⟩
abbrev S2048x512 : Shape := ⟨2, ![2048, 512]⟩
abbrev S1x512 : Shape := ⟨2, ![1, 512]⟩
abbrev S512x1000 : Shape := ⟨2, ![512, 1000]⟩
abbrev S1x1000 : Shape := ⟨2, ![1, 1000]⟩
abbrev S128x2048x49 : Shape := ⟨3, ![128, 2048, 49]⟩
abbrev S128x1000 : Shape := ⟨2, ![128, 1000]⟩
abbrev S8x2048x49 : Shape := ⟨3, ![8, 2048, 49]⟩
abbrev S8x1000 : Shape := ⟨2, ![8, 1000]⟩
abbrev S8x2048 : Shape := ⟨2, ![8, 2048]⟩
abbrev S8x512 : Shape := ⟨2, ![8, 512]⟩

abbrev nBuf : Space → Nat
  | .hbm => 9
  | .vmem => 10
  | .smem => 0
  | _ => 0

abbrev bufTy : (tb : Table) → Fin (tcTables nBuf tb) → BufTy
  | .hbm, ⟨0, _⟩ => ⟨S128x2048x7x7, .f32⟩
  | .hbm, ⟨1, _⟩ => ⟨S2048x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S512x1000, .f32⟩
  | .hbm, ⟨6, _⟩ => ⟨S1x1000, .f32⟩
  | .hbm, ⟨7, _⟩ => ⟨S128x2048x49, .f32⟩
  | .hbm, ⟨8, _⟩ => ⟨S128x1000, .f32⟩
  | .local _ .vmem, ⟨0, _⟩ => ⟨S8x2048x49, .f32⟩
  | .local _ .vmem, ⟨1, _⟩ => ⟨S8x2048x49, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x1000, .f32⟩
  | .local _ .vmem, ⟨7, _⟩ => ⟨S1x1000, .f32⟩
  | .local _ .vmem, ⟨8, _⟩ => ⟨S8x1000, .f32⟩
  | .local _ .vmem, ⟨9, _⟩ => ⟨S8x1000, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128x2048x7x7_S128x2048x49 : S128x2048x7x7.ShapeCasts S128x2048x49
  inb_S8x2048x49_S8x2048x49_0_0_0 : ∀ a, (![0, 0, 0] : Fin 3 → Nat) a + S8x2048x49.size a ≤ S8x2048x49.size a
  h_S8x2048x49 : 0 < S8x2048x49.numel
  shapeCasts_S8x2048x49_S8x2048x49 : S8x2048x49.ShapeCasts S8x2048x49
  reduces_S8x2048x49_S8x2048 : S8x2048x49.Reduces [2] S8x2048
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  broadcasts_S1x512_S8x512 : S1x512.Broadcasts S8x512
  inb_S512x1000_S512x1000_0_0 : ∀ a, (![0, 0] : Fin 2 → Nat) a + S512x1000.size a ≤ S512x1000.size a
  h_S512x1000 : 0 < S512x1000.numel
  inb_S1x1000_S1x1000_0_0 : ∀ a, (![0, 0] : Fin 2 → Nat) a + S1x1000.size a ≤ S1x1000.size a
  h_S1x1000 : 0 < S1x1000.numel
  broadcasts_S1x1000_S8x1000 : S1x1000.Broadcasts S8x1000
  inb_S8x1000_S8x1000_0_0 : ∀ a, (![0, 0] : Fin 2 → Nat) a + S8x1000.size a ≤ S8x1000.size a
  h_S8x1000 : 0 < S8x1000.numel
  dot_S8x2048_S2048x512_S8x512_1_0_0_1_n_n_wf : DotDims.WF S8x2048 S2048x512 S8x512 [1] [0] [0] [1] [] []
  dot_S8x512_S512x1000_S8x1000_1_0_0_1_n_n_wf : DotDims.WF S8x512 S512x1000 S8x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x49.size a ≤ S128x2048x49.size a
  hwx0_0 : ∀ i : grid0.Coords, EltTy.bits .f32 = 32 ∨ (Rect.block (s := S128x2048x49) S8x2048x49.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1000.size a ≤ S512x1000.size a
  hwx0_5 : ∀ i : grid0.Coords, EltTy.bits .f32 = 32 ∨ (Rect.block (s := S512x1000) S512x1000.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1000.size a ≤ S1x1000.size a
  hwx0_6 : ∀ i : grid0.Coords, EltTy.bits .f32 = 32 ∨ (Rect.block (s := S1x1000) S1x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x1000.size a ≤ S128x1000.size a
  hwx0_7 : ∀ i : grid0.Coords, EltTy.bits .f32 = 32 ∨ (Rect.block (s := S128x1000) S8x1000.size (cc0_transform_7 i) (hinb0_7 i)).WholeWords (EltTy.packing .f32)

variable [Facts₀]

def dot_S8x2048_S2048x512_S8x512_1_0_0_1_n_n : DotDims S8x2048 S2048x512 S8x512 where
  lhsContracting := [1]
  rhsContracting := [0]
  lhsNonContracting := [0]
  rhsNonContracting := [1]
  lhsBatch := []
  rhsBatch := []
  wf := dot_S8x2048_S2048x512_S8x512_1_0_0_1_n_n_wf
def dot_S8x512_S512x1000_S8x1000_1_0_0_1_n_n : DotDims S8x512 S512x1000 S8x1000 where
  lhsContracting := [1]
  rhsContracting := [0]
  lhsNonContracting := [0]
  rhsNonContracting := [1]
  lhsBatch := []
  rhsBatch := []
  wf := dot_S8x512_S512x1000_S8x1000_1_0_0_1_n_n_wf

abbrev win0_0 : Pipeline.Window sig grid0 :=
  Pipeline.Window.ofSpec (Memref.whole main_call0_v0) S8x2048x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8x1000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x2048x7x7 : Shape := ⟨4, ![128, 2048, 7, 7]⟩
abbrev S2048x512 : Shape := ⟨2, ![2048, 512]⟩
abbrev S1x512 : Shape := ⟨2, ![1, 512]⟩
abbrev S512x1000 : Shape := ⟨2, ![512, 1000]⟩
abbrev S1x1000 : Shape := ⟨2, ![1, 1000]⟩
abbrev S128x2048x49 : Shape := ⟨3, ![128, 2048, 49]⟩
abbrev S128x2048 : Shape := ⟨2, ![128, 2048]⟩
abbrev S128x128x49 : Shape := ⟨3, ![128, 128, 49]⟩
abbrev S128x128 : Shape := ⟨2, ![128, 128]⟩
abbrev S_ : Shape := ⟨0, ![]⟩
abbrev S512x1024 : Shape := ⟨2, ![512, 1024]⟩
abbrev S1x1024 : Shape := ⟨2, ![1, 1024]⟩
abbrev S128x1024 : Shape := ⟨2, ![128, 1024]⟩
abbrev S128x1000 : Shape := ⟨2, ![128, 1000]⟩
abbrev S128x512 : Shape := ⟨2, ![128, 512]⟩

abbrev nBuf : Space → Nat
  | .hbm => 17
  | .vmem => 12
  | .smem => 0
  | _ => 0

abbrev bufTy : (tb : Table) → Fin (tcTables nBuf tb) → BufTy
  | .hbm, ⟨0, _⟩ => ⟨S128x2048x7x7, .f32⟩
  | .hbm, ⟨1, _⟩ => ⟨S2048x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S512x1000, .f32⟩
  | .hbm, ⟨6, _⟩ => ⟨S1x1000, .f32⟩
  | .hbm, ⟨7, _⟩ => ⟨S128x2048x49, .f32⟩
  | .hbm, ⟨8, _⟩ => ⟨S128x2048, .f32⟩
  | .hbm, ⟨9, _⟩ => ⟨S_, .i32⟩
  | .hbm, ⟨10, _⟩ => ⟨S_, .f32⟩
  | .hbm, ⟨11, _⟩ => ⟨S512x1024, .f32⟩
  | .hbm, ⟨12, _⟩ => ⟨S_, .i32⟩
  | .hbm, ⟨13, _⟩ => ⟨S_, .f32⟩
  | .hbm, ⟨14, _⟩ => ⟨S1x1024, .f32⟩
  | .hbm, ⟨15, _⟩ => ⟨S128x1024, .f32⟩
  | .hbm, ⟨16, _⟩ => ⟨S128x1000, .f32⟩
  | .local _ .vmem, ⟨0, _⟩ => ⟨S128x128x49, .f32⟩
  | .local _ .vmem, ⟨1, _⟩ => ⟨S128x128x49, .f32⟩
  | .local _ .vmem, ⟨2, _⟩ => ⟨S128x128, .f32⟩
  | .local _ .vmem, ⟨3, _⟩ => ⟨S128x128, .f32⟩
  | .local _ .vmem, ⟨4, _⟩ => ⟨S128x2048, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x1024, .f32⟩
  | .local _ .vmem, ⟨10, _⟩ => ⟨S1x1024, .f32⟩
  | .local _ .vmem, ⟨11, _⟩ => ⟨S128x1024, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0 : Ref sig .tc := ⟨.hbm, 8, rfl⟩
abbrev main_call1_c : Ref sig .tc := ⟨.hbm, 9, rfl⟩
abbrev main_call1_call0_v0 : Ref sig .tc := ⟨.hbm, 10, rfl⟩
abbrev main_call1_v0 : Ref sig .tc := ⟨.hbm, 11, rfl⟩
abbrev main_call1_c_0 : Ref sig .tc := ⟨.hbm, 12, rfl⟩
abbrev main_call1_call1_v0 : Ref sig .tc := ⟨.hbm, 13, rfl⟩
abbrev main_call1_v1 : Ref sig .tc := ⟨.hbm, 14, rfl⟩
abbrev main_call1_v2 : Ref sig .tc := ⟨.hbm, 15, rfl⟩
abbrev main_v1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

class Facts₀ : Prop where
  shapeCasts_S128x2048x7x7_S128x2048x49 : S128x2048x7x7.ShapeCasts S128x2048x49
  inb_S128x128x49_S128x128x49_0_0_0 : ∀ a, (![0, 0, 0] : Fin 3 → Nat) a + S128x128x49.size a ≤ S128x128x49.size a
  h_S128x128x49 : 0 < S128x128x49.numel
  shapeCasts_S128x128x49_S128x128x49 : S128x128x49.ShapeCasts S128x128x49
  reduces_S128x128x49_S128x128 : S128x128x49.Reduces [2] S128x128
  inb_S128x128_S128x128_0_0 : ∀ a, (![0, 0] : Fin 2 → Nat) a + S128x128.size a ≤ S128x128.size a
  h_S128x128 : 0 < S128x128.numel
  pads_S512x1000_S512x1024_000_0240 : S512x1000.Pads (![0, 0] : Fin 2 → Nat) ![0, 24] ![0, 0] S512x1024
  h_S_ : 0 < S_.numel
  pads_S1x1000_S1x1024_000_0240 : S1x1000.Pads (![0, 0] : Fin 2 → Nat) ![0, 24] ![0, 0] S1x1024
  slices_S128x1024_S128x1000_0_0 : S128x1024.Slices ![0, 0] S128x1000
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  broadcasts_S1x512_S128x512 : S1x512.Broadcasts S128x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  dot_S128x2048_S2048x512_S128x512_1_0_0_1_n_n_wf : DotDims.WF S128x2048 S2048x512 S128x512 [1] [0] [0] [1] [] []
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x49.size a ≤ S128x2048x49.size a
  hwx0_0 : ∀ i : grid0.Coords, EltTy.bits .f32 = 32 ∨ (Rect.block (s := S128x2048x49) S128x128x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x2048.size a
  hwx0_1 : ∀ i : grid0.Coords, EltTy.bits .f32 = 32 ∨ (Rect.block (s := S128x2048) S128x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S128x2048.size a
  hwx1_0 : ∀ i : grid1.Coords, EltTy.bits .f32 = 32 ∨ (Rect.block (s := S128x2048) S128x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .f32 = 32 ∨ (Rect.block (s := S2048x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S512x1024.size a
  hwx1_5 : ∀ i : grid1.Coords, EltTy.bits .f32 = 32 ∨ (Rect.block (s := S512x1024) S512x1024.size (cc1_transform_5 i) (hinb1_5 i)).WholeWords (EltTy.packing .f32)
  hstage1_6 : ∀ j, (stage1_6 j).IsWhole
  nbuf1_6 : grid1.bufCount reads1_6 false = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 1
  hreads1_7 : ∀ i i' : grid1.Coords, (∀ a, reads1_7 a = true → i a = i' a) → cc1_transform_7 i = cc1_transform_7 i'
  hinb1_7 : ∀ (i : grid1.Coords) a, (cc1_transform_7 i a + 1) * S128x1024.size a ≤ S128x1024.size a
  hwx1_7 : ∀ i : grid1.Coords, EltTy.bits .f32 = 32 ∨ (Rect.block (s := S128x1024) S128x1024.size (cc1_transform_7 i) (hinb1_7 i)).WholeWords (EltTy.packing .f32)

variable [Facts₀]

def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_call0_v0) S128x128x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S128x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call1_v0) S512x1024.size cc1_transform_5 reads1_5 false false 1 stage1_5 sem1_5
    hrank1 hreads1_5 hinb1_5 nbuf1_5 (Memref.isWhole_whole _) hwx1_5 hstage1_5

abbrev win1_6 : Pipeline.Window sig grid1 :=
  Pipeline.Window.ofSpec (Memref.whole main_call1_v1) S1x1024.size cc1_transform_6 reads1_6 false false 1 stage1_6 sem1_6
    hrank1 hreads1_6 hinb1_6 nbuf1_6 (Memref.isWhole_whole _) hwx1_6 hstage1_6

abbrev win1_7 : Pipeline.Window sig grid1 :=
  Pipeline.Window.ofSpec (Memref.whole main_call1_v2) S128x1024.size cc1_transform_7 reads1_7 true false 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.LibMatmulPlain.lean ====
/-
  A plain matrix product read at an index.

  For the dimension numbers of an ordinary `M × K` by `K × N` product (`DotDims.plain`: the left operand contracted on
  its columns, the right one on its rows, no batch axis), a `tpu.matmul` into the zero accumulator is, at the extended
  reals and at entry `(p, q)`, the sum over `k : Fin K` of `lhs (p, k) * rhs (k, q)`.  The contraction index of the
  library's `Ideal.matmul_constant_zero_apply` is a one-axis multi-index; it is re-indexed here through
  `ValueIdx.contrEquiv1`, and the two operand indices are read axis by axis off `DotDims.lhsIdx` / `rhsIdx`.
-/
import Idealize.ShloMosaic.PureOps.Ideal.Laws
import Idealize.ShloMosaic.Lib.ValueIdx

noncomputable section

namespace Idealize.ShloMosaic.MatmulPlain

open Idealize.ShloMosaic Idealize.ShloMosaic.ValueIdx

variable {M K N : ℕ}

/-- The left operand's row is the result's row. -/
theorem lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem lhs_col (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row is the contraction position. -/
theorem rhs_row (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column is the result's column. -/
theorem rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain `M × K` by `K × N` product into the zero accumulator, at the extended reals and at entry `(p, q)`: the sum
    over the `K` contraction positions of the products of the left operand's row `p` and the right operand's column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain

end
-- ==== Proof.Neck.lean ====
/-
  The classifier neck both programs compute, as plain functions on the extended reals, and the two readings of a
  vector payload at an index that both programs share.

  For one batch row: a channel's 49 spatial entries are summed and multiplied by the scale word (`pooled`); hidden unit
  `d` is `max ((Σ_c f c · w1 c d + b1 d) · s d + t d) 0` (`hidden`); class `n`'s score is `Σ_d h d · w2 d n + b2 n`
  (`score`).  `scores` is the whole `128 × 1000` result as one function of the argument arrays.

  `pool_apply`: a lane sum over the last axis of a `[B, C, 49]` block times the broadcast scale, read at `(p, c)`, is
  `pooled` of that row and channel.  `head_apply`: the chain matmul, bias, scale, shift, ReLU, matmul, bias on a
  `[B, 2048]` block of features against weights with `N` classes, read at `(p, q)`, is `score` over `hidden` of row `p`.
  Both hold for every number of rows `B` (and of classes `N`), so they serve a tile of 8 rows as well as all 128.
-/
import Idealize.ShloMosaic.PureOps.Ideal.Laws
import Idealize.ShloMosaic.Lib.ValueIdx
import Idealize.ShloMosaic.Lib.ValueLayout
import Idealize.ShloMosaic.Lib.Pipeline.Value
import proofs.«123853_g2000702530078706_pallasbulk_22_4_alg».proof.Proof.LibMatmulPlain

noncomputable section

namespace Cert.Neck

open Idealize.ShloMosaic Idealize.ShloMosaic.ValueIdx

/-- The value of the f32 word both programs scale a spatial sum by. -/
def poolScale : EReal := Ideal.ofBits .f32 0x3CA72F05#32

/-- One channel of one row, pooled: the sum of its 49 spatial entries times the scale. -/
def pooled (xs : Fin 49 → EReal) : EReal := (∑ j : Fin 49, xs j) * poolScale

/-- One hidden unit of one row: the features against the unit's weight column, plus bias, scaled, shifted, clamped at 0. -/
def hidden (f w : Fin 2048 → EReal) (b s t : EReal) : EReal := max (((∑ c : Fin 2048, f c * w c) + b) * s + t) 0

/-- One class score of one row: the hidden units against the class's weight column, plus bias. -/
def score (h w : Fin 512 → EReal) (b : EReal) : EReal := (∑ d : Fin 512, h d * w d) + b

/-- Row `r`, class `n` of the result, from the argument arrays (`x` with its two spatial axes merged). -/
def scoreAt (x : (⟨3, ![128, 2048, 49]⟩ : Shape).Idx → EReal) (w1 : (⟨2, ![2048, 512]⟩ : Shape).Idx → EReal)
    (b1 s t : (⟨2, ![1, 512]⟩ : Shape).Idx → EReal) (w2 : (⟨2, ![512, 1000]⟩ : Shape).Idx → EReal)
    (b2 : (⟨2, ![1, 1000]⟩ : Shape).Idx → EReal) (r : Fin 128) (n : Fin 1000) : EReal :=
  score (fun d => hidden (fun c => pooled fun j => x (ix3 r c j)) (fun c => w1 (ix2 c d))
      (b1 (ix2 (0 : Fin 1) d)) (s (ix2 (0 : Fin 1) d)) (t (ix2 (0 : Fin 1) d)))
    (fun d => w2 (ix2 d n)) (b2 (ix2 (0 : Fin 1) n))

/-- The whole result array. -/
def scores (x : (⟨3, ![128, 2048, 49]⟩ : Shape).Idx → EReal) (w1 : (⟨2, ![2048, 512]⟩ : Shape).Idx → EReal)
    (b1 s t : (⟨2, ![1, 512]⟩ : Shape).Idx → EReal) (w2 : (⟨2, ![512, 1000]⟩ : Shape).Idx → EReal)
    (b2 : (⟨2, ![1, 1000]⟩ : Shape).Idx → EReal) : (⟨2, ![128, 1000]⟩ : Shape).Idx → EReal :=
  fun i => scoreAt x w1 b1 s t w2 b2 (i 0) (i 1)

/-- The lane sum over the 49 spatial entries (of the block cast to its own shape, as both bodies spell it) times the
    broadcast scale, at row `p` and channel `c`. -/
theorem pool_apply {B C : ℕ} (x : FVec Ideal ⟨3, ![B, C, 49]⟩ .f32)
    (hc : (⟨3, ![B, C, 49]⟩ : Shape).ShapeCasts ⟨3, ![B, C, 49]⟩)
    (h : (⟨3, ![B, C, 49]⟩ : Shape).Reduces [2] ⟨2, ![B, C]⟩) (hφ : FKind.Formats .f32)
    (hacc : (0x00000000#32 : BitVec 32) = FKind.add.neutral .f32 hφ) (p : Fin B) (c : Fin C) :
    mulf (multiReduction .add [2] ⟨2, ![B, C]⟩ (shapeCast ⟨3, ![B, C, 49]⟩ x hc) 0x00000000#32 h hφ hacc)
        (broadcast ⟨2, ![B, C]⟩ (Scalar.ofBits (F := Ideal) .f32 0x3CA72F05#32)) (ix2 p c)
      = pooled fun j => x (ix3 p c j) := by
  rw [shapeCast_self, mulf_apply, broadcast_apply]
  refine congrArg (· * poolScale) ?_
  refine (Ideal.multiReduction_add_single x 0x00000000#32 h hφ hacc (ix2 p c)).trans ?_
  refine Finset.sum_congr rfl fun j _ => congrArg x (funext fun a => Fin.ext ?_)
  match a with
  | ⟨0, _⟩ => rfl
  | ⟨1, _⟩ => rfl
  | ⟨2, _⟩ => rfl

/-- The head on a block of `B` rows of features, at row `p` and class `q`. -/
theorem head_apply {B N : ℕ} (f : FVec Ideal ⟨2, ![B, 2048]⟩ .f32) (w1 : FVec Ideal ⟨2, ![2048, 512]⟩ .f32)
    (b1 s t : FVec Ideal ⟨2, ![1, 512]⟩ .f32) (w2 : FVec Ideal ⟨2, ![512, N]⟩ .f32) (b2 : FVec Ideal ⟨2, ![1, N]⟩ .f32)
    (hb : (⟨2, ![1, 512]⟩ : Shape).Broadcasts ⟨2, ![B, 512]⟩) (hb' : (⟨2, ![1, N]⟩ : Shape).Broadcasts ⟨2, ![B, N]⟩)
    (p : Fin B) (q : Fin N) :
    addf (matmul (DotDims.plain B 512 N) none
        (maximumf
          (addf (mulf (addf (matmul (DotDims.plain B 2048 512) none f w1 (constant ⟨2, ![B, 512]⟩ .f32 0x00000000#32))
              (broadcastTo ⟨2, ![B, 512]⟩ b1 hb)) (broadcastTo ⟨2, ![B, 512]⟩ s hb)) (broadcastTo ⟨2, ![B, 512]⟩ t hb))
          (broadcast ⟨2, ![B, 512]⟩ (Scalar.ofBits (F := Ideal) .f32 0x00000000#32)))
        w2 (constant ⟨2, ![B, N]⟩ .f32 0x00000000#32)) (broadcastTo ⟨2, ![B, N]⟩ b2 hb') (ix2 p q)
      = score (fun d => hidden (fun c => f (ix2 p c)) (fun c => w1 (ix2 c d))
            (b1 (ix2 (0 : Fin 1) d)) (s (ix2 (0 : Fin 1) d)) (t (ix2 (0 : Fin 1) d)))
          (fun d => w2 (ix2 d q)) (b2 (ix2 (0 : Fin 1) q)) := by
  rw [addf_apply, broadcastTo_1b_ab_apply]
  refine congrArg (· + b2 (ix2 (0 : Fin 1) q)) ?_
  refine (MatmulPlain.matmul_zero_apply none _ w2 p q).trans ?_
  refine Finset.sum_congr rfl fun d _ => congrArg (· * w2 (ix2 d q)) ?_
  rw [maximumf_apply, addf_apply, mulf_apply, addf_apply, broadcast_apply, broadcastTo_1b_ab_apply,
    broadcastTo_1b_ab_apply, broadcastTo_1b_ab_apply]
  refine congrArg₂ max (congrArg (fun z => (z + b1 (ix2 (0 : Fin 1) d)) * s (ix2 (0 : Fin 1) d) + t (ix2 (0 : Fin 1) d)) ?_)
    Ideal.ofBits_zero_f32
  exact MatmulPlain.matmul_zero_apply none f w1 p d

end Cert.Neck

end
-- ==== Proof.KernelValue.lean ====
/-
  What the fused kernel leaves in its result array, at the extended reals.

  The grid has 16 points; point `t` works on batch rows `8t … 8t+7`.  Its body loads the `[8, 2048, 49]` block of the
  (spatially merged) input and the whole weight arrays, and stores an `[8, 1000]` block of scores: entry `(p, q)` of the
  stored vector is the neck's score of the block's row `p` for class `q` (`pay_apply`).  The block's row `p` is the
  input's row `8t + p`, the weight blocks are the weight arrays themselves, and the stored block lands on rows
  `8t … 8t+7` of the result, so point `t` writes back block `t` of the whole-array function `Neck.scores` (`flushed_eq`).
  The 16 blocks cover all 128 rows (`covered`), hence the result array ends as `Neck.scores` of the merged input and
  the weights (`final`, `run`).
-/
import proofs.«123853_g2000702530078706_pallasbulk_22_4_alg».proof.Proof.Gen.KernelIdeal.Value
import proofs.«123853_g2000702530078706_pallasbulk_22_4_alg».proof.Proof.Neck
import Idealize.ShloMosaic.Lib.Pipeline.Value
import Idealize.ShloMosaic.Lib.StableHlo.Run

noncomputable section

namespace Cert.KernelIdeal.Fused

open Cert.KernelIdeal Cert.KernelIdeal.Gen Idealize.ShloMosaic Idealize.ShloMosaic.TcCoe Idealize.SL.Sem
open Idealize.ShloMosaic.ValueIdx
open Idealize.ShloMosaic.Pipeline (Dat)

/-- Entry `(p, q)` of the vector the body stores: the neck's score of row `p` of the loaded block for class `q`. -/
theorem pay_apply (x0 : Vec Ideal S8x2048x49 .f32) (w1 : Vec Ideal S2048x512 .f32) (b1 s t : Vec Ideal S1x512 .f32)
    (w2 : Vec Ideal S512x1000 .f32) (b2 : Vec Ideal S1x1000 .f32) (p : Fin 8) (q : Fin 1000) :
    k0_pay1 (F := Ideal) x0 w1 b1 s t w2 b2 (ix2 p q)
      = Neck.score (fun d => Neck.hidden (fun c => Neck.pooled fun j => x0 (ix3 p c j)) (fun c => w1 (ix2 c d))
            (b1 (ix2 (0 : Fin 1) d)) (s (ix2 (0 : Fin 1) d)) (t (ix2 (0 : Fin 1) d)))
          (fun d => w2 (ix2 d q)) (b2 (ix2 (0 : Fin 1) q)) := by
  unfold k0_pay1
  refine (Neck.head_apply (B := 8) (N := 1000) _ w1 b1 s t w2 b2 _ _ p q).trans ?_
  refine congrArg (fun g : Fin 2048 → EReal => Neck.score (fun d => Neck.hidden g (fun c => w1 (ix2 c d))
      (b1 (ix2 (0 : Fin 1) d)) (s (ix2 (0 : Fin 1) d)) (t (ix2 (0 : Fin 1) d))) (fun d => w2 (ix2 d q)) (b2 (ix2 (0 : Fin 1) q)))
    (funext fun c => ?_)
  exact Neck.pool_apply (B := 8) (C := 2048) x0 _ _ _ _ p c

variable (m : (ℓ : Loc nD τ sig) → Buf (Elt Ideal) ℓ) (ρ : Dev nD → PrngReg)

/-- The merged input as the region finds it: the one host operation before the region re-lays the input's two
    spatial axes as one of 49. -/
theorem merged_eq (c : Dev nD) :
    (V m c main_call0_v0 : S128x2048x49.Idx → EReal)
      = shapeCast S128x2048x49 (m ((c : Thread nD τ).loc main_arg0)) Facts₀.shapeCasts_S128x2048x7x7_S128x2048x49 := by
  dsimp only [Gen.V, Gen.hostOps0]; after_results; rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the 16 grid points: the input's block and the result's block both sit at row block `t`; every
    other block index is 0 (the weight windows' blocks are their whole arrays). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the input's block at point `t` is row `8t + p` of the merged input. -/
theorem blk0 (c : Dev nD) (t : Fin cfg0.N) (p : Fin 8) (ch : Fin 2048) (j : Fin 49) (r : Fin 128)
    (hr : r.val = t.val * 8 + p.val) :
    iblk m c 0 t (ix3 p ch j) = V m c main_call0_v0 (ix3 r ch j) := by
  show V m c main_call0_v0 (((cfg0.win 0).blk t).view.emb (ix3 p ch j)) = V m c main_call0_v0 (ix3 r ch j)
  refine congrArg _ (funext fun a => Fin.ext ?_)
  obtain ⟨e0, e1, e2, -⟩ := idx_facts t
  match a with
  | ⟨0, _⟩ => show win0_0.index t (0 : Fin 3) * 8 + 1 * p.val = r.val; omega
  | ⟨1, _⟩ => show win0_0.index t (1 : Fin 3) * 2048 + 1 * ch.val = ch.val; omega
  | ⟨2, _⟩ => show win0_0.index t (2 : Fin 3) * 49 + 1 * j.val = j.val; omega

/-- Each weight window's block is its whole array. -/
theorem blk1 (c : Dev nD) (t : Fin cfg0.N) : iblk m c 1 t = V m c main_arg1 := by
  funext y
  show V m c main_arg1 (((cfg0.win 1).blk t).view.emb y) = V m c main_arg1 y
  refine congrArg _ (funext fun a => Fin.ext ?_)
  obtain ⟨-, -, -, e0, e1, -⟩ := idx_facts t
  match a with
  | ⟨0, _⟩ => show win0_1.index t (0 : Fin 2) * 2048 + 1 * (y 0).val = (y 0).val; omega
  | ⟨1, _⟩ => show win0_1.index t (1 : Fin 2) * 512 + 1 * (y 1).val = (y 1).val; omega
theorem blk2 (c : Dev nD) (t : Fin cfg0.N) : iblk m c 2 t = V m c main_arg2 := by
  funext y
  show V m c main_arg2 (((cfg0.win 2).blk t).view.emb y) = V m c main_arg2 y
  refine congrArg _ (funext fun a => Fin.ext ?_)
  obtain ⟨-, -, -, -, -, e0, e1, -⟩ := idx_facts t
  match a with
  | ⟨0, _⟩ => show win0_2.index t (0 : Fin 2) * 1 + 1 * (y 0).val = (y 0).val; omega
  | ⟨1, _⟩ => show win0_2.index t (1 : Fin 2) * 512 + 1 * (y 1).val = (y 1).val; omega
theorem blk3 (c : Dev nD) (t : Fin cfg0.N) : iblk m c 3 t = V m c main_arg3 := by
  funext y
  show V m c main_arg3 (((cfg0.win 3).blk t).view.emb y) = V m c main_arg3 y
  refine congrArg _ (funext fun a => Fin.ext ?_)
  obtain ⟨-, -, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 512 + 1 * (y 1).val = (y 1).val; omega
theorem blk4 (c : Dev nD) (t : Fin cfg0.N) : iblk m c 4 t = V m c main_arg4 := by
  funext y
  show V m c main_arg4 (((cfg0.win 4).blk t).view.emb y) = V m c main_arg4 y
  refine congrArg _ (funext fun a => Fin.ext ?_)
  obtain ⟨-, -, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 512 + 1 * (y 1).val = (y 1).val; omega
theorem blk5 (c : Dev nD) (t : Fin cfg0.N) : iblk m c 5 t = V m c main_arg5 := by
  funext y
  show V m c main_arg5 (((cfg0.win 5).blk t).view.emb y) = V m c main_arg5 y
  refine congrArg _ (funext fun a => Fin.ext ?_)
  obtain ⟨-, -, -, -, -, -, -, -, -, -, -, e0, e1, -⟩ := idx_facts t
  match a with
  | ⟨0, _⟩ => show win0_5.index t (0 : Fin 2) * 512 + 1 * (y 0).val = (y 0).val; omega
  | ⟨1, _⟩ => show win0_5.index t (1 : Fin 2) * 1000 + 1 * (y 1).val = (y 1).val; omega
theorem blk6 (c : Dev nD) (t : Fin cfg0.N) : iblk m c 6 t = V m c main_arg6 := by
  funext y
  show V m c main_arg6 (((cfg0.win 6).blk t).view.emb y) = V m c main_arg6 y
  refine congrArg _ (funext fun a => Fin.ext ?_)
  obtain ⟨-, -, -, -, -, -, -, -, -, -, -, -, -, e0, e1, -⟩ := idx_facts t
  match a with
  | ⟨0, _⟩ => show win0_6.index t (0 : Fin 2) * 1 + 1 * (y 0).val = (y 0).val; omega
  | ⟨1, _⟩ => show win0_6.index t (1 : Fin 2) * 1000 + 1 * (y 1).val = (y 1).val; omega

/-- The stored entry `(p, q)`, when row `p` of the loaded block is row `r` of the array `X`, is entry `(r, q)` of the
    whole-array function of `X` and the weights. -/
theorem point_apply (X : S128x2048x49.Idx → EReal) (x0 : Vec Ideal S8x2048x49 .f32) (w1 : Vec Ideal S2048x512 .f32)
    (b1 s t : Vec Ideal S1x512 .f32) (w2 : Vec Ideal S512x1000 .f32) (b2 : Vec Ideal S1x1000 .f32)
    (p : Fin 8) (q : Fin 1000) (r : Fin 128) (hx : ∀ ch j, x0 (ix3 p ch j) = X (ix3 r ch j)) :
    k0_pay1 (F := Ideal) x0 w1 b1 s t w2 b2 (ix2 p q) = Neck.scores X w1 b1 s t w2 b2 (ix2 r q) := by
  rw [pay_apply]
  show _ = Neck.scoreAt X w1 b1 s t w2 b2 r q
  unfold Neck.scoreAt
  simp only [hx]

/-- What point `t` writes back is block `t` (rows `8t … 8t+7`) of the whole-array function of the arrays as the region
    finds them. -/
theorem flushed_eq (c : Dev nD) (t : Fin cfg0.N) :
    (dats m 0 c).flushed 7 t = ((cfg0.win 7).blk t).view.read (Elt Ideal)
      (Neck.scores (V m c main_call0_v0) (V m c main_arg1) (V m c main_arg2) (V m c main_arg3) (V m c main_arg4)
        (V m c main_arg5) (V m c main_arg6)) := by
  rw [Value.flushed7]
  unfold out0_7
  rw [View.canon_unit_zero hz2]
  simp only [View.ld_unit_zero (S := S8x2048x49) hz3, View.ld_unit_zero (S := S2048x512) hz2,
    View.ld_unit_zero (S := S1x512) hz2, View.ld_unit_zero (S := S512x1000) hz2, View.ld_unit_zero (S := S1x1000) hz2]
  rw [blk1, blk2, blk3, blk4, blk5, blk6]
  show (k0_pay1 (F := Ideal) (iblk m c 0 t) (V m c main_arg1) (V m c main_arg2) (V m c main_arg3) (V m c main_arg4)
      (V m c main_arg5) (V m c main_arg6) : S8x1000.Idx → EReal)
    = fun y : S8x1000.Idx => Neck.scores (V m c main_call0_v0) (V m c main_arg1) (V m c main_arg2) (V m c main_arg3)
        (V m c main_arg4) (V m c main_arg5) (V m c main_arg6) (((cfg0.win 7).blk t).view.emb y)
  funext y
  obtain ⟨p, q, rfl⟩ : ∃ (p : Fin 8) (q : Fin 1000), y = ix2 p q := ⟨y 0, y 1, eq_ix2 y⟩
  have hN : grid0.N = 16 := N_0
  have ht : t.val < grid0.N := t.isLt
  obtain ⟨-, -, -, -, -, -, -, -, -, -, -, -, -, -, -, e0, e1⟩ := idx_facts t
  have hi : ((cfg0.win 7).blk t).view.emb (ix2 p q) = ix2 (⟨t.val * 8 + p.val, by omega⟩ : Fin 128) q :=
    funext fun a => Fin.ext (by
      match a with
      | ⟨0, _⟩ => show win0_7.index t (0 : Fin 2) * 8 + 1 * p.val = t.val * 8 + p.val; omega
      | ⟨1, _⟩ => show win0_7.index t (1 : Fin 2) * 1000 + 1 * q.val = q.val; omega)
  rw [hi]
  exact point_apply (V m c main_call0_v0) (iblk m c 0 t) (V m c main_arg1) (V m c main_arg2) (V m c main_arg3)
    (V m c main_arg4) (V m c main_arg5) (V m c main_arg6) p q _ (fun ch j => blk0 m c t p ch j _ rfl)

/-- An index of the result is in point `t`'s block iff each coordinate is in the block's range on its axis. -/
theorem mem_blk (t : Fin cfg0.N) (i : S128x1000.Idx) :
    i ∈ ((cfg0.win 7).blk t).view.set ↔ ∀ a : Fin 2, win0_7.index t a * S8x1000.size a ≤ (i a).val
      ∧ (i a).val < win0_7.index t a * S8x1000.size a + S8x1000.size a := by
  show i ∈ ((View.whole main_v0).slice (win0_7.rect t)).set ↔ _
  rw [View.set_slice_whole, Rect.mem_set_unit]
  exact Iff.rfl

/-- Every index of the result lies in the block of the point that owns its row: point `⌊row / 8⌋`. -/
theorem covered (i : S128x1000.Idx) :
    ∃ t : Fin cfg0.N, (cfg0.win 7).flush t = true ∧ i ∈ ((cfg0.win 7).blk t).view.set := by
  have hi0 : (i 0).val < 128 := (i 0).isLt
  have hi1 : (i 1).val < 1000 := (i 1).isLt
  have hN : grid0.N = 16 := N_0
  refine ⟨⟨(i 0).val / 8, by show (i 0).val / 8 < grid0.N; omega⟩, flush0_7 _, ?_⟩
  rw [mem_blk]
  obtain ⟨-, -, -, -, -, -, -, -, -, -, -, -, -, -, -, e0, e1⟩ := idx_facts ⟨(i 0).val / 8, by show (i 0).val / 8 < grid0.N; omega⟩
  intro a
  match a with
  | ⟨0, _⟩ =>
    show win0_7.index ⟨(i 0).val / 8, _⟩ (0 : Fin 2) * 8 ≤ (i 0).val ∧ (i 0).val < win0_7.index ⟨(i 0).val / 8, _⟩ (0 : Fin 2) * 8 + 8
    rw [e0]; show (i 0).val / 8 * 8 ≤ (i 0).val ∧ (i 0).val < (i 0).val / 8 * 8 + 8; omega
  | ⟨1, _⟩ =>
    show win0_7.index ⟨(i 0).val / 8, _⟩ (1 : Fin 2) * 1000 ≤ (i 1).val ∧ (i 1).val < win0_7.index ⟨(i 0).val / 8, _⟩ (1 : Fin 2) * 1000 + 1000
    rw [e1]; omega

/-- The result array after the run, as one function of the launch memory. -/
theorem final (c : Dev nD) :
    (dats m 0 c).arrAt 7 cfg0.N
      = Neck.scores (shapeCast S128x2048x49 (m ((c : Thread nD τ).loc main_arg0)) Facts₀.shapeCasts_S128x2048x7x7_S128x2048x49)
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  rw [(dats m 0 c).arrAt_eq_of_cover 7 _ (fun t _ => flushed_eq m c t) covered, merged_eq, V_main_arg1, V_main_arg2,
    V_main_arg3, V_main_arg4, V_main_arg5, V_main_arg6]

/-- The kernel's run with its result named: the neck's scores of the merged input and the weights. -/
theorem run : θ_run defs (onTc (τ := τ) (main (F := Ideal))) ⟨m, fun _ => 0, ρ⟩ fun r => ∀ c : Dev nD,
      r.2.mem ((c : Thread nD τ).loc main_v0)
        = Neck.scores (shapeCast S128x2048x49 (m ((c : Thread nD τ).loc main_arg0)) Facts₀.shapeCasts_S128x2048x7x7_S128x2048x49)
            (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Fused

end
-- ==== Proof.RefValue.lean ====
/-
  What the reference leaves in its result array, at the extended reals.

  The reference runs two kernels.  The first pools: its grid has 16 points, point `t` loads the `[128, 128, 49]` block
  of channels `128t … 128t+127` of the merged input and stores the `[128, 128]` block of pooled features of those
  channels (`gap_apply`, `gap_flushed`); the 16 blocks cover the `[128, 2048]` feature array (`gap_covered`), which
  therefore ends as `feat` of the merged input (`gap_final`).  Between the two kernels the host pads the classifier's
  weight and bias from 1000 to 1024 classes.  The second kernel has one grid point whose blocks are the whole arrays:
  it stores, at `(r, n)`, the neck's score of feature row `r` for (padded) class `n` (`head_apply`, `head_final`).  The
  host then keeps classes `0 … 999`.  Below class 1000 the padded weight and bias are the arguments themselves, so
  the result is `Neck.scores` of the merged input and the arguments (`result_eq`, `run`).
-/
import proofs.«123853_g2000702530078706_pallasbulk_22_4_alg».proof.Proof.RefRun
import proofs.«123853_g2000702530078706_pallasbulk_22_4_alg».proof.Proof.Neck
import Idealize.ShloMosaic.Lib.Pipeline.Value
import Idealize.ShloMosaic.Lib.StableHlo.Run
import Idealize.ShloMosaic.Lib.KernelVsHost
import Idealize.ShloMosaic.Lib.ValueLayout

noncomputable section

namespace Cert.ReferenceIdeal.TwoCalls

open Cert.ReferenceIdeal Cert.ReferenceIdeal.Gen Idealize.ShloMosaic Idealize.ShloMosaic.TcCoe Idealize.SL.Sem
open Idealize.ShloMosaic.ValueIdx
open Idealize.ShloMosaic.Pipeline (Dat)

/-! ## The two bodies' stored vectors at an index -/

/-- Entry `(r, cc)` of the vector the pooling body stores: row `r`, channel `cc` of the loaded block, pooled. -/
theorem gap_apply (x0 : Vec Ideal S128x128x49 .f32) (r cc : Fin 128) :
    k0_pay1 (F := Ideal) x0 (ix2 r cc) = Neck.pooled fun j => x0 (ix3 r cc j) := by
  unfold k0_pay1
  exact Neck.pool_apply (B := 128) (C := 128) x0 _ _ _ _ r cc

/-- Entry `(r, n)` of the vector the head's body stores: the neck's score of feature row `r` for class `n` of the
    padded classifier. -/
theorem head_apply (f : Vec Ideal S128x2048 .f32) (w1 : Vec Ideal S2048x512 .f32) (b1 s t : Vec Ideal S1x512 .f32)
    (w2 : Vec Ideal S512x1024 .f32) (b2 : Vec Ideal S1x1024 .f32) (r : Fin 128) (n : Fin 1024) :
    k1_pay1 (F := Ideal) f w1 b1 s t w2 b2 (ix2 r n)
      = Neck.score (fun d => Neck.hidden (fun c => f (ix2 r c)) (fun c => w1 (ix2 c d))
            (b1 (ix2 (0 : Fin 1) d)) (s (ix2 (0 : Fin 1) d)) (t (ix2 (0 : Fin 1) d)))
          (fun d => w2 (ix2 d n)) (b2 (ix2 (0 : Fin 1) n)) := by
  unfold k1_pay1
  simp only [shapeCast_self]
  exact Neck.head_apply (B := 128) (N := 1024) f w1 b1 s t w2 b2 _ _ r n

theorem hz3 : (![0, 0, 0] : Fin 3 → Nat) = fun _ => 0 := funext fun a => by fin_cases a <;> rfl
theorem hz2 : (![0, 0] : Fin 2 → Nat) = fun _ => 0 := funext fun a => by fin_cases a <;> rfl

section Regions
variable (V : (c : Dev nD) → (b : Ref sig .tc) → Buf (Elt Ideal) ((c : Thread nD τ).loc b))

/-! ## The pooling kernel -/

/-- The pooled features of a merged input, row `r` and channel `ch`. -/
def featAt (X : S128x2048x49.Idx → EReal) (r : Fin 128) (ch : Fin 2048) : EReal := Neck.pooled fun j => X (ix3 r ch j)
/-- The `[128, 2048]` array of pooled features. -/
def feat (X : S128x2048x49.Idx → EReal) : S128x2048.Idx → EReal := fun i => featAt X (i 0) (i 1)

/-- The pooling kernel's index maps over its 16 points: both blocks sit at channel block `t`. -/
theorem gap_idx : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = t.val :=
  (by decide +kernel : ∀ t : Fin grid0.N, _)

/-- Channel `cc` of the input's block at point `t` is channel `128t + cc` of the merged input. -/
theorem gap_blk (c : Dev nD) (t : Fin cfg0.N) (r cc : Fin 128) (j : Fin 49) (ch : Fin 2048)
    (hch : ch.val = t.val * 128 + cc.val) :
    iblk0 V c 0 t (ix3 r cc j) = V c main_call0_v0 (ix3 r ch j) := by
  show V c main_call0_v0 (((cfg0.win 0).blk t).view.emb (ix3 r cc j)) = V c main_call0_v0 (ix3 r ch j)
  refine congrArg _ (funext fun a => Fin.ext ?_)
  obtain ⟨e0, e1, e2, -⟩ := gap_idx t
  match a with
  | ⟨0, _⟩ => show win0_0.index t (0 : Fin 3) * 128 + 1 * r.val = r.val; omega
  | ⟨1, _⟩ => show win0_0.index t (1 : Fin 3) * 128 + 1 * cc.val = ch.val; omega
  | ⟨2, _⟩ => show win0_0.index t (2 : Fin 3) * 49 + 1 * j.val = j.val; omega

/-- What point `t` of the pooling kernel writes back is block `t` (channels `128t … 128t+127`) of `feat`. -/
theorem gap_flushed (c : Dev nD) (t : Fin cfg0.N) :
    (dat0 V c).flushed 1 t = ((cfg0.win 1).blk t).view.read (Elt Ideal) (feat (V c main_call0_v0)) := by
  show (cfg0.win 1).cut (grid0.coords t) ((dat0 V c).after 1 t) = _
  rw [after0_1]
  unfold out0_1
  rw [View.canon_unit_zero hz2]
  simp only [View.ld_unit_zero (S := S128x128x49) hz3]
  show (k0_pay1 (F := Ideal) (iblk0 V c 0 t) : S128x128.Idx → EReal)
    = fun y : S128x128.Idx => feat (V c main_call0_v0) (((cfg0.win 1).blk t).view.emb y)
  funext y
  obtain ⟨r, cc, rfl⟩ : ∃ (r cc : Fin 128), y = ix2 r cc := ⟨y 0, y 1, eq_ix2 y⟩
  have hN : grid0.N = 16 := N_0
  have ht : t.val < grid0.N := t.isLt
  obtain ⟨-, -, -, e0, e1⟩ := gap_idx t
  have hi : ((cfg0.win 1).blk t).view.emb (ix2 r cc) = ix2 r (⟨t.val * 128 + cc.val, by omega⟩ : Fin 2048) :=
    funext fun a => Fin.ext (by
      match a with
      | ⟨0, _⟩ => show win0_1.index t (0 : Fin 2) * 128 + 1 * r.val = r.val; omega
      | ⟨1, _⟩ => show win0_1.index t (1 : Fin 2) * 128 + 1 * cc.val = t.val * 128 + cc.val; omega)
  rw [hi, gap_apply]
  show _ = featAt (V c main_call0_v0) r ⟨t.val * 128 + cc.val, _⟩
  unfold featAt
  exact congrArg Neck.pooled (funext fun j => gap_blk V c t r cc j _ rfl)

/-- An index of the feature array is in point `t`'s block iff each coordinate is in the block's range. -/
theorem gap_mem_blk (t : Fin cfg0.N) (i : S128x2048.Idx) :
    i ∈ ((cfg0.win 1).blk t).view.set ↔ ∀ a : Fin 2, win0_1.index t a * S128x128.size a ≤ (i a).val
      ∧ (i a).val < win0_1.index t a * S128x128.size a + S128x128.size a := by
  show i ∈ ((View.whole main_v0).slice (win0_1.rect t)).set ↔ _
  rw [View.set_slice_whole, Rect.mem_set_unit]
  exact Iff.rfl

/-- Every index of the feature array lies in the block of the point that owns its channel: point `⌊channel / 128⌋`. -/
theorem gap_covered (i : S128x2048.Idx) :
    ∃ t : Fin cfg0.N, (cfg0.win 1).flush t = true ∧ i ∈ ((cfg0.win 1).blk t).view.set := by
  have hi0 : (i 0).val < 128 := (i 0).isLt
  have hi1 : (i 1).val < 2048 := (i 1).isLt
  have hN : grid0.N = 16 := N_0
  refine ⟨⟨(i 1).val / 128, by show (i 1).val / 128 < grid0.N; omega⟩, flush0_1 _, ?_⟩
  rw [gap_mem_blk]
  obtain ⟨-, -, -, e0, e1⟩ := gap_idx ⟨(i 1).val / 128, by show (i 1).val / 128 < grid0.N; omega⟩
  intro a
  match a with
  | ⟨0, _⟩ =>
    show win0_1.index ⟨(i 1).val / 128, _⟩ (0 : Fin 2) * 128 ≤ (i 0).val
      ∧ (i 0).val < win0_1.index ⟨(i 1).val / 128, _⟩ (0 : Fin 2) * 128 + 128
    rw [e0]; omega
  | ⟨1, _⟩ =>
    show win0_1.index ⟨(i 1).val / 128, _⟩ (1 : Fin 2) * 128 ≤ (i 1).val
      ∧ (i 1).val < win0_1.index ⟨(i 1).val / 128, _⟩ (1 : Fin 2) * 128 + 128
    rw [e1]; show (i 1).val / 128 * 128 ≤ (i 1).val ∧ (i 1).val < (i 1).val / 128 * 128 + 128; omega

/-- The feature array after the pooling kernel. -/
theorem gap_final (c : Dev nD) : (dat0 V c).arrAt 1 cfg0.N = feat (V c main_call0_v0) :=
  (dat0 V c).arrAt_eq_of_cover 1 _ (fun t _ => gap_flushed V c t) gap_covered

/-! ## The head kernel -/

/-- Row `r`, padded class `n` of the head's result from whole arrays. -/
def headAt (f : S128x2048.Idx → EReal) (w1 : S2048x512.Idx → EReal) (b1 s t : S1x512.Idx → EReal)
    (w2 : S512x1024.Idx → EReal) (b2 : S1x1024.Idx → EReal) (r : Fin 128) (n : Fin 1024) : EReal :=
  Neck.score (fun d => Neck.hidden (fun c => f (ix2 r c)) (fun c => w1 (ix2 c d))
      (b1 (ix2 (0 : Fin 1) d)) (s (ix2 (0 : Fin 1) d)) (t (ix2 (0 : Fin 1) d)))
    (fun d => w2 (ix2 d n)) (b2 (ix2 (0 : Fin 1) n))
/-- The head's `[128, 1024]` result. -/
def head (f : S128x2048.Idx → EReal) (w1 : S2048x512.Idx → EReal) (b1 s t : S1x512.Idx → EReal)
    (w2 : S512x1024.Idx → EReal) (b2 : S1x1024.Idx → EReal) : S128x1024.Idx → EReal :=
  fun i => headAt f w1 b1 s t w2 b2 (i 0) (i 1)

/-- The head's one grid point: every block index is 0. -/
theorem head_idx : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Each of the head's input blocks is its whole array. -/
theorem head_blk0 (c : Dev nD) (t : Fin cfg1.N) : iblk1 V c 0 t = V c main_v0 := by
  funext y
  show V c main_v0 (((cfg1.win 0).blk t).view.emb y) = V c main_v0 y
  refine congrArg _ (funext fun a => Fin.ext ?_)
  obtain ⟨e0, e1, -⟩ := head_idx t
  match a with
  | ⟨0, _⟩ => show win1_0.index t (0 : Fin 2) * 128 + 1 * (y 0).val = (y 0).val; omega
  | ⟨1, _⟩ => show win1_0.index t (1 : Fin 2) * 2048 + 1 * (y 1).val = (y 1).val; omega
theorem head_blk1 (c : Dev nD) (t : Fin cfg1.N) : iblk1 V c 1 t = V c main_arg1 := by
  funext y
  show V c main_arg1 (((cfg1.win 1).blk t).view.emb y) = V c main_arg1 y
  refine congrArg _ (funext fun a => Fin.ext ?_)
  obtain ⟨-, -, e0, e1, -⟩ := head_idx t
  match a with
  | ⟨0, _⟩ => show win1_1.index t (0 : Fin 2) * 2048 + 1 * (y 0).val = (y 0).val; omega
  | ⟨1, _⟩ => show win1_1.index t (1 : Fin 2) * 512 + 1 * (y 1).val = (y 1).val; omega
theorem head_blk2 (c : Dev nD) (t : Fin cfg1.N) : iblk1 V c 2 t = V c main_arg2 := by
  funext y
  show V c main_arg2 (((cfg1.win 2).blk t).view.emb y) = V c main_arg2 y
  refine congrArg _ (funext fun a => Fin.ext ?_)
  obtain ⟨-, -, -, -, e0, e1, -⟩ := head_idx t
  match a with
  | ⟨0, _⟩ => show win1_2.index t (0 : Fin 2) * 1 + 1 * (y 0).val = (y 0).val; omega
  | ⟨1, _⟩ => show win1_2.index t (1 : Fin 2) * 512 + 1 * (y 1).val = (y 1).val; omega
theorem head_blk3 (c : Dev nD) (t : Fin cfg1.N) : iblk1 V c 3 t = V c main_arg3 := by
  funext y
  show V c main_arg3 (((cfg1.win 3).blk t).view.emb y) = V c main_arg3 y
  refine congrArg _ (funext fun a => Fin.ext ?_)
  obtain ⟨-, -, -, -, -, -, e0, e1, -⟩ := head_idx t
  match a with
  | ⟨0, _⟩ => show win1_3.index t (0 : Fin 2) * 1 + 1 * (y 0).val = (y 0).val; omega
  | ⟨1, _⟩ => show win1_3.index t (1 : Fin 2) * 512 + 1 * (y 1).val = (y 1).val; omega
theorem head_blk4 (c : Dev nD) (t : Fin cfg1.N) : iblk1 V c 4 t = V c main_arg4 := by
  funext y
  show V c main_arg4 (((cfg1.win 4).blk t).view.emb y) = V c main_arg4 y
  refine congrArg _ (funext fun a => Fin.ext ?_)
  obtain ⟨-, -, -, -, -, -, -, -, e0, e1, -⟩ := head_idx t
  match a with
  | ⟨0, _⟩ => show win1_4.index t (0 : Fin 2) * 1 + 1 * (y 0).val = (y 0).val; omega
  | ⟨1, _⟩ => show win1_4.index t (1 : Fin 2) * 512 + 1 * (y 1).val = (y 1).val; omega
theorem head_blk5 (c : Dev nD) (t : Fin cfg1.N) : iblk1 V c 5 t = V c main_call1_v0 := by
  funext y
  show V c main_call1_v0 (((cfg1.win 5).blk t).view.emb y) = V c main_call1_v0 y
  refine congrArg _ (funext fun a => Fin.ext ?_)
  obtain ⟨-, -, -, -, -, -, -, -, -, -, e0, e1, -⟩ := head_idx t
  match a with
  | ⟨0, _⟩ => show win1_5.index t (0 : Fin 2) * 512 + 1 * (y 0).val = (y 0).val; omega
  | ⟨1, _⟩ => show win1_5.index t (1 : Fin 2) * 1024 + 1 * (y 1).val = (y 1).val; omega
theorem head_blk6 (c : Dev nD) (t : Fin cfg1.N) : iblk1 V c 6 t = V c main_call1_v1 := by
  funext y
  show V c main_call1_v1 (((cfg1.win 6).blk t).view.emb y) = V c main_call1_v1 y
  refine congrArg _ (funext fun a => Fin.ext ?_)
  obtain ⟨-, -, -, -, -, -, -, -, -, -, -, -, e0, e1, -⟩ := head_idx t
  match a with
  | ⟨0, _⟩ => show win1_6.index t (0 : Fin 2) * 1 + 1 * (y 0).val = (y 0).val; omega
  | ⟨1, _⟩ => show win1_6.index t (1 : Fin 2) * 1024 + 1 * (y 1).val = (y 1).val; omega

/-- What the head's one point writes back is the whole of `head` of the arrays as the region finds them. -/
theorem head_flushed (c : Dev nD) (t : Fin cfg1.N) :
    (dat1 V c).flushed 7 t = ((cfg1.win 7).blk t).view.read (Elt Ideal)
      (head (V c main_v0) (V c main_arg1) (V c main_arg2) (V c main_arg3) (V c main_arg4) (V c main_call1_v0)
        (V c main_call1_v1)) := by
  show (cfg1.win 7).cut (grid1.coords t) ((dat1 V c).after 7 t) = _
  rw [after1_7]
  unfold out1_7
  rw [View.canon_unit_zero hz2]
  simp only [View.ld_unit_zero (S := S128x2048) hz2, View.ld_unit_zero (S := S2048x512) hz2,
    View.ld_unit_zero (S := S1x512) hz2, View.ld_unit_zero (S := S512x1024) hz2, View.ld_unit_zero (S := S1x1024) hz2]
  rw [head_blk0, head_blk1, head_blk2, head_blk3, head_blk4, head_blk5, head_blk6]
  show (k1_pay1 (F := Ideal) (V c main_v0) (V c main_arg1) (V c main_arg2) (V c main_arg3) (V c main_arg4)
      (V c main_call1_v0) (V c main_call1_v1) : S128x1024.Idx → EReal)
    = fun y : S128x1024.Idx => head (V c main_v0) (V c main_arg1) (V c main_arg2) (V c main_arg3) (V c main_arg4)
        (V c main_call1_v0) (V c main_call1_v1) (((cfg1.win 7).blk t).view.emb y)
  funext y
  obtain ⟨r, n, rfl⟩ : ∃ (r : Fin 128) (n : Fin 1024), y = ix2 r n := ⟨y 0, y 1, eq_ix2 y⟩
  obtain ⟨-, -, -, -, -, -, -, -, -, -, -, -, -, -, e0, e1⟩ := head_idx t
  have hi : ((cfg1.win 7).blk t).view.emb (ix2 r n) = ix2 r n :=
    funext fun a => Fin.ext (by
      match a with
      | ⟨0, _⟩ => show win1_7.index t (0 : Fin 2) * 128 + 1 * r.val = r.val; omega
      | ⟨1, _⟩ => show win1_7.index t (1 : Fin 2) * 1024 + 1 * n.val = n.val; omega)
  rw [hi, head_apply]
  rfl

/-- An index of the head's result is in the one point's block iff each coordinate is in the block's range. -/
theorem head_mem_blk (t : Fin cfg1.N) (i : S128x1024.Idx) :
    i ∈ ((cfg1.win 7).blk t).view.set ↔ ∀ a : Fin 2, win1_7.index t a * S128x1024.size a ≤ (i a).val
      ∧ (i a).val < win1_7.index t a * S128x1024.size a + S128x1024.size a := by
  show i ∈ ((View.whole main_call1_v2).slice (win1_7.rect t)).set ↔ _
  rw [View.set_slice_whole, Rect.mem_set_unit]
  exact Iff.rfl

/-- The one point's block is the whole result. -/
theorem head_covered (i : S128x1024.Idx) :
    ∃ t : Fin cfg1.N, (cfg1.win 7).flush t = true ∧ i ∈ ((cfg1.win 7).blk t).view.set := by
  have hi0 : (i 0).val < 128 := (i 0).isLt
  have hi1 : (i 1).val < 1024 := (i 1).isLt
  have hN : grid1.N = 1 := N_1
  refine ⟨⟨0, by show 0 < grid1.N; omega⟩, flush1_7 _, ?_⟩
  rw [head_mem_blk]
  obtain ⟨-, -, -, -, -, -, -, -, -, -, -, -, -, -, e0, e1⟩ := head_idx ⟨0, by show 0 < grid1.N; omega⟩
  intro a
  match a with
  | ⟨0, _⟩ =>
    show win1_7.index ⟨0, _⟩ (0 : Fin 2) * 128 ≤ (i 0).val ∧ (i 0).val < win1_7.index ⟨0, _⟩ (0 : Fin 2) * 128 + 128
    rw [e0]; omega
  | ⟨1, _⟩ =>
    show win1_7.index ⟨0, _⟩ (1 : Fin 2) * 1024 ≤ (i 1).val ∧ (i 1).val < win1_7.index ⟨0, _⟩ (1 : Fin 2) * 1024 + 1024
    rw [e1]; omega

/-- The head's result array after its kernel. -/
theorem head_final (c : Dev nD) :
    (dat1 V c).arrAt 7 cfg1.N = head (V c main_v0) (V c main_arg1) (V c main_arg2) (V c main_arg3) (V c main_arg4)
      (V c main_call1_v0) (V c main_call1_v1) :=
  (dat1 V c).arrAt_eq_of_cover 7 _ (fun t _ => head_flushed V c t) head_covered

end Regions

/-! ## The host operations around the two kernels, and the result -/

variable (m : (ℓ : Loc nD τ sig) → Buf (Elt Ideal) ℓ) (ρ : Dev nD → PrngReg)

/-- The merged input as the pooling kernel finds it: the host re-lays the input's two spatial axes as one of 49. -/
theorem merged_eq (c : Dev nD) :
    (V1 m ρ c main_call0_v0 : S128x2048x49.Idx → EReal)
      = shapeCast S128x2048x49 (m ((c : Thread nD τ).loc main_arg0)) Facts₀.shapeCasts_S128x2048x7x7_S128x2048x49 := by
  show StableHlo.after hostOps0 (W0 m ρ c) (Proc.devRef .tc main_call0_v0) = _
  after_results; rfl

/-- An argument array that the host operations before the pooling kernel leave alone, after them. -/
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results

/-- The head finds the feature array as the pooling kernel left it: `feat` of the merged input. -/
theorem head_feat (c : Dev nD) :
    (V3 m ρ c main_v0 : S128x2048.Idx → EReal)
      = feat (shapeCast S128x2048x49 (m ((c : Thread nD τ).loc main_arg0)) Facts₀.shapeCasts_S128x2048x7x7_S128x2048x49) := by
  show StableHlo.after hostOps1 (W2 m ρ c) (Proc.devRef .tc main_v0) = _
  after_results
  rw [show W2 m ρ c (Proc.devRef .tc main_v0) = (dat0 (V1 m ρ) c).arrAt 1 cfg0.N from W2_arr m ρ c 1, gap_final, merged_eq]

/-- The head finds the first layer's weights, bias, scale and shift as launched. -/
theorem head_arg1 (c : Dev nD) : V3 m ρ c main_arg1 = m ((c : Thread nD τ).loc main_arg1) := by
  show StableHlo.after hostOps1 (W2 m ρ c) (Proc.devRef .tc main_arg1) = _
  after_results
  rw [W2_of_ne m ρ c main_arg1 (by decide), W1_arg1]
theorem head_arg2 (c : Dev nD) : V3 m ρ c main_arg2 = m ((c : Thread nD τ).loc main_arg2) := by
  show StableHlo.after hostOps1 (W2 m ρ c) (Proc.devRef .tc main_arg2) = _
  after_results
  rw [W2_of_ne m ρ c main_arg2 (by decide), W1_arg2]
theorem head_arg3 (c : Dev nD) : V3 m ρ c main_arg3 = m ((c : Thread nD τ).loc main_arg3) := by
  show StableHlo.after hostOps1 (W2 m ρ c) (Proc.devRef .tc main_arg3) = _
  after_results
  rw [W2_of_ne m ρ c main_arg3 (by decide), W1_arg3]
theorem head_arg4 (c : Dev nD) : V3 m ρ c main_arg4 = m ((c : Thread nD τ).loc main_arg4) := by
  show StableHlo.after hostOps1 (W2 m ρ c) (Proc.devRef .tc main_arg4) = _
  after_results
  rw [W2_of_ne m ρ c main_arg4 (by decide), W1_arg4]

/-- The padded classifier weight the head finds, below class 1000, is the argument. -/
theorem head_w2_apply (c : Dev nD) (d : Fin 512) (n : Fin 1024) (n' : Fin 1000) (hn : n.val = n'.val) :
    (V3 m ρ c main_call1_v0 : S512x1024.Idx → EReal) (ix2 d n) = m ((c : Thread nD τ).loc main_arg5) (ix2 d n') := by
  have e : (V3 m ρ c main_call1_v0 : S512x1024.Idx → EReal)
      = pad S512x1024 ![0, 0] ![0, 24] ![0, 0] (m ((c : Thread nD τ).loc main_arg5) : S512x1000.Idx → EReal)
          (sitofp (F := Ideal) .f32 (constantI S_ 32 0#32)) Facts₀.pads_S512x1000_S512x1024_000_0240 Facts₀.h_S_ := by
    show StableHlo.after hostOps1 (W2 m ρ c) (Proc.devRef .tc main_call1_v0) = _
    after_results
    rw [W2_of_ne m ρ c main_arg5 (by decide), W1_arg5]
    rfl
  rw [e]
  refine pad_apply_of_inside _ _ _ _ _ _ _ (ix2 d n) (ix2 d n') fun a => ?_
  match a with
  | ⟨0, _⟩ => show d.val = 0 + d.val * (0 + 1); omega
  | ⟨1, _⟩ => show n.val = 0 + n'.val * (0 + 1); omega

/-- The padded classifier bias the head finds, below class 1000, is the argument. -/
theorem head_b2_apply (c : Dev nD) (n : Fin 1024) (n' : Fin 1000) (hn : n.val = n'.val) :
    (V3 m ρ c main_call1_v1 : S1x1024.Idx → EReal) (ix2 (0 : Fin 1) n) = m ((c : Thread nD τ).loc main_arg6) (ix2 (0 : Fin 1) n') := by
  have e : (V3 m ρ c main_call1_v1 : S1x1024.Idx → EReal)
      = pad S1x1024 ![0, 0] ![0, 24] ![0, 0] (m ((c : Thread nD τ).loc main_arg6) : S1x1000.Idx → EReal)
          (sitofp (F := Ideal) .f32 (constantI S_ 32 0#32)) Facts₀.pads_S1x1000_S1x1024_000_0240 Facts₀.h_S_ := by
    show StableHlo.after hostOps1 (W2 m ρ c) (Proc.devRef .tc main_call1_v1) = _
    after_results
    rw [W2_of_ne m ρ c main_arg6 (by decide), W1_arg6]
    rfl
  rw [e]
  refine pad_apply_of_inside _ _ _ _ _ _ _ (ix2 (0 : Fin 1) n) (ix2 (0 : Fin 1) n') fun a => ?_
  match a with
  | ⟨0, _⟩ => show (0 : ℕ) = 0 + 0 * (0 + 1); omega
  | ⟨1, _⟩ => show n.val = 0 + n'.val * (0 + 1); omega

/-- The result buffer after the last host operation: the neck's scores of the merged input and the arguments. -/
theorem result_eq (c : Dev nD) :
    (W5 m ρ c (Proc.devRef .tc main_v1) : S128x1000.Idx → EReal)
      = Neck.scores (shapeCast S128x2048x49 (m ((c : Thread nD τ).loc main_arg0)) Facts₀.shapeCasts_S128x2048x7x7_S128x2048x49)
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  have e : (W5 m ρ c (Proc.devRef .tc main_v1) : S128x1000.Idx → EReal)
      = extractStridedSlice S128x1000 ![0, 0] (W4 m ρ c (Proc.devRef .tc main_call1_v2) : S128x1024.Idx → EReal)
          Facts₀.slices_S128x1024_S128x1000_0_0 := by
    show StableHlo.after hostOps2 (W4 m ρ c) (Proc.devRef .tc main_v1) = _
    after_results; rfl
  rw [e, show W4 m ρ c (Proc.devRef .tc main_call1_v2) = (dat1 (V3 m ρ) c).arrAt 7 cfg1.N from W4_arr m ρ c 7, head_final]
  funext i
  obtain ⟨r, n, rfl⟩ : ∃ (r : Fin 128) (n : Fin 1000), i = ix2 r n := ⟨i 0, i 1, eq_ix2 i⟩
  have hn : n.val < 1000 := n.isLt
  rw [slice2_axis1_apply 0 _ _ r n (⟨n.val, by omega⟩ : Fin 1024) (by simp)]
  show headAt (V3 m ρ c main_v0) (V3 m ρ c main_arg1) (V3 m ρ c main_arg2) (V3 m ρ c main_arg3) (V3 m ρ c main_arg4)
      (V3 m ρ c main_call1_v0) (V3 m ρ c main_call1_v1) r ⟨n.val, _⟩ = Neck.scoreAt _ _ _ _ _ _ _ r n
  unfold headAt Neck.scoreAt
  rw [head_feat, head_arg1, head_arg2, head_arg3, head_arg4]
  simp only [head_w2_apply m ρ c _ ⟨n.val, by omega⟩ n rfl, head_b2_apply m ρ c ⟨n.val, by omega⟩ n rfl]
  rfl

/-- The reference's run with its result named: the neck's scores of the merged input and the weights. -/
theorem run : θ_run defs (onTc (τ := τ) (main (F := Ideal))) ⟨m, fun _ => 0, ρ⟩ fun r => ∀ c : Dev nD,
      r.2.mem ((c.tc : Thread nD τ).loc main_v1)
        = Neck.scores (shapeCast S128x2048x49 (m ((c : Thread nD τ).loc main_arg0)) Facts₀.shapeCasts_S128x2048x7x7_S128x2048x49)
            (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (result_eq m ρ c), (h c).2⟩) (GenRun.run m ρ)

end Cert.ReferenceIdeal.TwoCalls

end
-- ==== Proof.lean ====
/-
  The fused classifier neck against the two-kernel reference, over the extended reals.

  Both programs compute, for batch row `r` and class `n`,
      Σ_d max ((Σ_c ((Σ_j x r c j) · k) · w1 c d + b1 d) · s d + t d) 0 · w2 d n + b2 n,
  with `j` over the 49 spatial positions, `c` over the 2048 channels, `d` over the 512 hidden units and `k` the same
  f32 word on both sides (`Cert.Neck.scores`).  The kernel does it in one call tiled over groups of 8 batch rows
  (`Cert.KernelIdeal.Fused.run`); the reference pools in one call tiled over groups of 128 channels, pads the classifier
  to 1024 classes with zeros, runs the head in a second call on whole arrays and keeps the first 1000 classes
  (`Cert.ReferenceIdeal.TwoCalls.run`).  A different tiling changes nothing at the extended reals, and the padded
  classes never reach a kept entry, so the two results are the same function of the arguments: no algebraic law and
  no finiteness of the inputs is used.  The ideal pass rewrote nothing, so `preserves` is trivial; the three frames
  are the programs' runs with the result forgotten.
-/
import proofs.«123853_g2000702530078706_pallasbulk_22_4_alg».proof.Defs
import proofs.«123853_g2000702530078706_pallasbulk_22_4_alg».proof.Proof.Gen.Kernel
import proofs.«123853_g2000702530078706_pallasbulk_22_4_alg».proof.Proof.Gen.Kernel.Frame
import proofs.«123853_g2000702530078706_pallasbulk_22_4_alg».proof.Proof.Gen.KernelIdeal
import proofs.«123853_g2000702530078706_pallasbulk_22_4_alg».proof.Proof.Gen.KernelIdeal.Frame
import proofs.«123853_g2000702530078706_pallasbulk_22_4_alg».proof.Proof.Gen.ReferenceIdeal
import proofs.«123853_g2000702530078706_pallasbulk_22_4_alg».proof.Proof.Gen.ReferenceIdeal.Frame
import proofs.«123853_g2000702530078706_pallasbulk_22_4_alg».proof.Proof.Gen.Pre_finite_inputs
import proofs.«123853_g2000702530078706_pallasbulk_22_4_alg».proof.Proof.KernelValue
import proofs.«123853_g2000702530078706_pallasbulk_22_4_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- And the reference, through its two calls and the host operations around them. -/
theorem frame_referenceIdeal : Cert.frame_ReferenceIdeal := fun m ρ _ => Cert.ReferenceIdeal.Gen.frame m ρ

/-- The ideal pass rewrote no operation. -/
theorem preserves : Cert.preserves_Kernel_KernelIdeal := trivial

/-- From memories agreeing on the arguments both programs end with the neck's scores of those arguments. -/
theorem algebraic : Cert.algebraic_KernelIdeal_ReferenceIdeal := by
  intro m ρ m' ρ' _ hagree
  refine ⟨_, Cert.KernelIdeal.Fused.run m ρ, ?_⟩
  refine (θ_run Cert.ReferenceIdeal.defs _ _).mono (fun _ h c => ⟨(h c).1.trans ?_, (h c).2⟩)
    (Cert.ReferenceIdeal.TwoCalls.run m' ρ')
  rw [(hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
